-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4096 : Shape := ⟨3, ![4, 64, 4096]⟩
abbrev S_ : Shape := ⟨0, ![]⟩

class Facts : Prop where
  bcast_S_S4x64x4096 : S_.BroadcastsInDim S4x64x4096 (![] : Fin 0 → Fin S4x64x4096.rank)
  reducesTo_S4x64x4096_S_d0_1_2 : S4x64x4096.ReducesTo [0, 1, 2] S_
  h_S_ : 0 < S_.numel

variable [Facts]

def fn {F : FTy → Type} [FloatOps F] (main_arg0 : FVec F S4x64x4096 .f32) : IVec S_ 1 :=
  let main_v0 : FVec F S4x64x4096 .f32 := Host.absf main_arg0
  let main_cst : FVec F S_ .f32 := constant S_ .f32 0x7F800000#32
  let main_v1 : FVec F S4x64x4096 .f32 := broadcastInDim S4x64x4096 ![] bcast_S_S4x64x4096 main_cst
  let main_v2 : IVec S4x64x4096 1 := cmpf .olt main_v0 main_v1
  let main_c : IVec S_ 1 := constantI S_ 1 1#1
  let main_v3 : IVec S_ 1 := (fun x v => Host.reduce IntOp.andi x v reducesTo_S4x64x4096_S_d0_1_2 h_S_) main_v2 main_c
  main_v3
-- ==== Kernel.lean ====
abbrev S4x64x4096 : Shape := ⟨3, ![4, 64, 4096]⟩
abbrev S4x4096x4096 : Shape := ⟨3, ![4, 4096, 4096]⟩
abbrev S1x64x1024 : Shape := ⟨3, ![1, 64, 1024]⟩
abbrev S1x1024x1024 : Shape := ⟨3, ![1, 1024, 1024]⟩
abbrev S64x1024 : Shape := ⟨2, ![64, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 2
  | .vmem => 6
  | .smem => 0
  | _ => 0

abbrev bufTy : (tb : Table) → Fin (tcTables nBuf tb) → BufTy
  | .hbm, ⟨0, _⟩ => ⟨S4x64x4096, .f32⟩
  | .hbm, ⟨1, _⟩ => ⟨S4x4096x4096, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x1024, .f32⟩
  | .local _ .vmem, ⟨5, _⟩ => ⟨S1x1024x1024, .f32⟩
  | _, _ => ⟨S4x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S64x1024_S1024 : S64x1024.Reduces [0] S1024
  shapeCasts_S1024_S1x1024 : S1024.ShapeCasts S1x1024
  bitsLt_bf16_f32 : FTy.bits .bf16 < FTy.bits .f32
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S64x1024_S64x1024_S1024x1024_0_0_1_1_n_n_wf : DotDims.WF S64x1024 S64x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S4x64x4096.size a
  hwx0_0 : ∀ i : grid0.Coords, EltTy.bits .f32 = 32 ∨ (Rect.block (s := S4x64x4096) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x64x4096.size a
  hwx0_1 : ∀ i : grid0.Coords, EltTy.bits .f32 = 32 ∨ (Rect.block (s := S4x64x4096) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S64x1024_S64x1024_S1024x1024_0_0_1_1_n_n : DotDims S64x1024 S64x1024 S1024x1024 where
  lhsContracting := [0]
  rhsContracting := [0]
  lhsNonContracting := [1]
  rhsNonContracting := [1]
  lhsBatch := []
  rhsBatch := []
  wf := dot_S64x1024_S64x1024_S1024x1024_0_0_1_1_n_n_wf

abbrev win0_0 : Pipeline.Window sig grid0 :=
  Pipeline.Window.ofSpec (Memref.whole main_arg0) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x4096 : Shape := ⟨3, ![4, 64, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x64x4096, .f32⟩
  | .hbm, ⟨1, _⟩ => ⟨S4x4096x4096, .f32⟩
  | .hbm, ⟨2, _⟩ => ⟨S4x64x4096, .f32⟩
  | .hbm, ⟨3, _⟩ => ⟨S_, .f32⟩
  | .hbm, ⟨4, _⟩ => ⟨S4x4096, .f32⟩
  | .hbm, ⟨5, _⟩ => ⟨S4x4096, .f32⟩
  | .hbm, ⟨6, _⟩ => ⟨S4x4096x1, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | _, _ => ⟨S4x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  reducesTo_S4x64x4096_S4x4096_d1 : S4x64x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  dot_S4x64x4096_S4x64x4096_S4x4096x4096_1_1_2_2_0_0_wf : DotDims.WF S4x64x4096 S4x64x4096 S4x4096x4096 [1] [1] [2] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf

class Facts : Prop extends Facts₀ where

variable [Facts]
-- ==== Proof.KRun.lean ====
/-
  The kernel's program runs to the end, and what its arrays hold then (at any float instance `F`).

  The program is one pipelined region over a 4 × 4 × 4 grid of points (b, i, j). Two input windows read the SAME
  array `x : [4, 64, 4096]`: window 0 the block of all 64 channels at positions 1024·i … 1024·i + 1023 of batch b,
  window 1 the same at 1024·j …; the output window writes back the block (b, i, j) of the result `[4, 4096, 4096]`.
  Because one array stands behind two windows, the array's ownership is dealt between them: the left half of the
  full share to window 0 and the right half to window 1 (both only read), the result array whole to window 2.

  At each point the body finds the two input blocks in its staging buffers (window 0 is fetched only when i or b
  moves, but a block not refetched is still the one found before: its index did not move), stores one value over
  the whole output buffer — the body's arithmetic `k0_pay1` of the two blocks — and leaves the inputs as they were.
  So after the run every result block holds `k0_pay1` of the two input blocks of its point, and `x` is unchanged.
-/
import proofs.«122935_j57638461112506_1_alg».proof.Proof.Gen.Kernel.Launch
import proofs.«122935_j57638461112506_1_alg».proof.Proof.Gen.Kernel.Skeleton
import proofs.«122935_j57638461112506_1_alg».proof.Proof.Gen.Kernel.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The ghost state: one copy of the rounds algebra, for the pipeline's staging cells. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays and their blocks -/

/-- The TensorCore's buffers when the region is entered: as launched (the program is the region alone). -/
abbrev V (c : Dev nD) (b : Ref sig .tc) : Buf (Elt F) ((c : Thread nD τ).loc b) := m ((c : Thread nD τ).loc b)

/-- Window `w`'s block of its array at grid point `t`. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole input buffer and the whole output buffer, as the body's accesses name them. -/
abbrev boxIn : Rect S1x64x1024 := Rect.unit (s := S1x64x1024) ![0, 0, 0] S1x64x1024.size inb_S1x64x1024_S1x64x1024_0_0_0
abbrev boxOut : Rect S1x1024x1024 := Rect.unit (s := S1x1024x1024) ![0, 0, 0] S1x1024x1024.size inb_S1x1024x1024_S1x1024x1024_0_0_0

/-- The output buffer after the body, from the two input buffers' contents: its one store. -/
def stored (x0 x1 : Vec F S1x64x1024 .f32) : Vec F S1x1024x1024 .f32 :=
  View.canon [⟨boxOut, k0_pay1 (View.ld x0 boxIn) (View.ld x1 boxIn)⟩]

/-- The one store covers the buffer. -/
theorem stored_cover (p0 : Vec F S1x1024x1024 .f32) (y : S1x1024x1024.Idx) :
    ∃ pc ∈ ([⟨boxOut, p0⟩] : List (View.Piece (Elt F) S1x1024x1024 .f32)), y ∈ pc.1.set :=
  View.cover_of_tiled [⟨boxOut, p0⟩] S1x1024x1024.size (by rfl) y

/-- The accesses are whole-buffer accesses, so the stored value is the body's arithmetic of the two buffers. -/
theorem stored_eq (x0 x1 : Vec F S1x64x1024 .f32) : stored x0 x1 = k0_pay1 x0 x1 := by
  have hz : (![0, 0, 0] : Fin 3 → Nat) = fun _ => 0 := funext fun a => by fin_cases a <;> rfl
  unfold stored
  rw [View.canon_unit_zero hz, View.ld_unit_zero (S := S1x64x1024) hz, View.ld_unit_zero (S := S1x64x1024) hz]

/-! ## The body's triple -/

set_option maxHeartbeats 1000000 in
/-- The body on whole staging memrefs: the inputs' at `x0`, `x1` and the output's at anything, runs to the inputs'
    as they were and the output's at `stored x0 x1`. -/
theorem sound_kernel (c : Dev nD) (E : Set ℕ) (i : grid0.Coords)
    (a0 : Memref sig .tc .vmem S1x64x1024 .f32) (h0 : a0.IsWhole) (a1 : Memref sig .tc .vmem S1x64x1024 .f32) (h1 : a1.IsWhole)
    (a2 : Memref sig .tc .vmem S1x1024x1024 .f32) (h2 : a2.IsWhole)
    (x0 x1 : Vec F S1x64x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
              ∗ owns (c : Thread nD τ) a2 fullShare (stored x0 x1)) -∗ K ⟨⟩))
      ⊢ wp frame (wpE (defs₀ (F := F)) Variants.none c none) E (cc0__cos_attn_kernel i a0 h0 a1 h1 a2 h2) K := by
  simp only [cc0__cos_attn_kernel_eq_skeleton]; unfold cc0__cos_attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The proof data -/

/-- Per core: the arrays as launched; after the body at point `t` each input buffer at its block and the output
    buffer at the stored value of the two blocks; no invariant; nothing owed; `x`'s ownership dealt in halves to
    the two windows that read it. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) :
    (dats m 0 c).after 2 t = stored (blockAt m c 0 t) (blockAt m c 1 t) := by dsimp only [dats]

/-- An input's staging buffer holds its block at every point, fetched there or not: where it is not fetched the
    block index has not moved since the point before. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The two buffers behind the three windows' arrays, each held whole, are the windows' arrays at their shares:
    `x`'s full share is the composite of its two halves, one for each window that reads it. -/
theorem split_arrays (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_v0] (by decide) (by decide)]
  have e0 : (cfg0.win 0).arr.view.set = Finset.univ := (arr_whole0 0).set_eq_univ
  have e2 : (cfg0.win 2).arr.view.set = Finset.univ := (arr_whole0 2).set_eq_univ
  rw [e0, e2, show (dats m 0 c).share 0 = fullShare.left from rfl,
    show (dats m 0 c).share 1 = fullShare.right from rfl, show (dats m 0 c).share 2 = fullShare from rfl]
  change iprop((((c : Thread nD τ).loc main_arg0) ↦{fullShare} V m c main_arg0)
      ∗ (((c : Thread nD τ).loc main_v0) ↦{fullShare} V m c main_v0)) ⊢ _
  iintro ⟨Hx, Ho⟩
  ihave Hs := (pointsTo_share (PosShare.mem_left_op_right fullShare)).1 $$ Hx
  icases Hs with ⟨H0, H1⟩
  isplitl [H0]; · iexact H0
  isplitl [H1]; · iexact H1
  iexact Ho

/-! ## The launch -/

/-- The launch element of the ghost state: every staging cell's owner at round 0 and a duty token for every transfer
    the pipeline issues. -/
def u₀ : UR sig nD τ := initOf (Pipeline.cells cfgs cellOf_inj) (Pipeline.launchToks cfgs cellOf_inj)

set_option backward.isDefEq.respectTransparency.types false in
/-- From any memory with zero counters every weakly fair execution of the program terminates, and then each window's
    array holds what the write-backs of the proof data leave in it. The windows may share arrays: the launch deals
    the buffers behind them by `split_arrays`. Nothing else is routed: there is no scratch and no other buffer. -/
theorem run_main : θ_run defs (onTc (τ := τ) (main (F := F))) (s₀ m ρ)
    (fun r => ∀ (c : Dev nD) (w : Fin cfg0.W),
      r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := split_arrays m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The input array is only read: after the run it holds what it held. -/
theorem final_in (c : Dev nD) : (dats m 0 c).arrAt 0 cfg0.N = m ((c : Thread nD τ).loc main_arg0) :=
  ((dats (F := F) m 0 c).arrAt_in (0 : Fin 3) rfl _).trans (A_eq m c 0)

/-- The frame: the program runs to the end from any memory with zero counters and leaves its argument unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 3)).trans (final_in m c)) (run_main m ρ)

/-- The same run read at the result array too: it ends at the proof data's last write-backs. -/
theorem run_result : θ_run defs (onTc (τ := τ) (main (F := F))) ⟨m, fun _ => 0, ρ⟩ (fun r => ∀ c : Dev nD,
    r.2.mem ((c.tc : Thread nD τ).loc main_v0) = (dats m 0 c).arrAt 2 cfg0.N
    ∧ r.2.mem ((c.tc : Thread nD τ).loc main_arg0) = m ((c.tc : Thread nD τ).loc main_arg0)) :=
  (θ_run defs _ _).mono (fun _ h c => ⟨h c (2 : Fin 3), (h c (0 : Fin 3)).trans (final_in m c)⟩) (run_main m ρ)

end Cert.Kernel.Hand

end
-- ==== Proof.KiRun.lean ====
/-
  The kernel's program runs to the end, and what its arrays hold then (at any float instance `F`).

  The program is one pipelined region over a 4 × 4 × 4 grid of points (b, i, j). Two input windows read the SAME
  array `x : [4, 64, 4096]`: window 0 the block of all 64 channels at positions 1024·i … 1024·i + 1023 of batch b,
  window 1 the same at 1024·j …; the output window writes back the block (b, i, j) of the result `[4, 4096, 4096]`.
  Because one array stands behind two windows, the array's ownership is dealt between them: the left half of the
  full share to window 0 and the right half to window 1 (both only read), the result array whole to window 2.

  At each point the body finds the two input blocks in its staging buffers (window 0 is fetched only when i or b
  moves, but a block not refetched is still the one found before: its index did not move), stores one value over
  the whole output buffer — the body's arithmetic `k0_pay1` of the two blocks — and leaves the inputs as they were.
  So after the run every result block holds `k0_pay1` of the two input blocks of its point, and `x` is unchanged.
-/
import proofs.«122935_j57638461112506_1_alg».proof.Proof.Gen.KernelIdeal.Launch
import proofs.«122935_j57638461112506_1_alg».proof.Proof.Gen.KernelIdeal.Skeleton
import proofs.«122935_j57638461112506_1_alg».proof.Proof.Gen.KernelIdeal.Points
import Idealize.ShloMosaic.Lib.Pipeline.Kit
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The ghost state: one copy of the rounds algebra, for the pipeline's staging cells. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The arrays and their blocks -/

/-- The TensorCore's buffers when the region is entered: as launched (the program is the region alone). -/
abbrev V (c : Dev nD) (b : Ref sig .tc) : Buf (Elt F) ((c : Thread nD τ).loc b) := m ((c : Thread nD τ).loc b)

/-- Window `w`'s block of its array at grid point `t`. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole input buffer and the whole output buffer, as the body's accesses name them. -/
abbrev boxIn : Rect S1x64x1024 := Rect.unit (s := S1x64x1024) ![0, 0, 0] S1x64x1024.size inb_S1x64x1024_S1x64x1024_0_0_0
abbrev boxOut : Rect S1x1024x1024 := Rect.unit (s := S1x1024x1024) ![0, 0, 0] S1x1024x1024.size inb_S1x1024x1024_S1x1024x1024_0_0_0

/-- The output buffer after the body, from the two input buffers' contents: its one store. -/
def stored (x0 x1 : Vec F S1x64x1024 .f32) : Vec F S1x1024x1024 .f32 :=
  View.canon [⟨boxOut, k0_pay1 (View.ld x0 boxIn) (View.ld x1 boxIn)⟩]

/-- The one store covers the buffer. -/
theorem stored_cover (p0 : Vec F S1x1024x1024 .f32) (y : S1x1024x1024.Idx) :
    ∃ pc ∈ ([⟨boxOut, p0⟩] : List (View.Piece (Elt F) S1x1024x1024 .f32)), y ∈ pc.1.set :=
  View.cover_of_tiled [⟨boxOut, p0⟩] S1x1024x1024.size (by rfl) y

/-- The accesses are whole-buffer accesses, so the stored value is the body's arithmetic of the two buffers. -/
theorem stored_eq (x0 x1 : Vec F S1x64x1024 .f32) : stored x0 x1 = k0_pay1 x0 x1 := by
  have hz : (![0, 0, 0] : Fin 3 → Nat) = fun _ => 0 := funext fun a => by fin_cases a <;> rfl
  unfold stored
  rw [View.canon_unit_zero hz, View.ld_unit_zero (S := S1x64x1024) hz, View.ld_unit_zero (S := S1x64x1024) hz]

/-! ## The body's triple -/

set_option maxHeartbeats 1000000 in
/-- The body on whole staging memrefs: the inputs' at `x0`, `x1` and the output's at anything, runs to the inputs'
    as they were and the output's at `stored x0 x1`. -/
theorem sound_kernel (c : Dev nD) (E : Set ℕ) (i : grid0.Coords)
    (a0 : Memref sig .tc .vmem S1x64x1024 .f32) (h0 : a0.IsWhole) (a1 : Memref sig .tc .vmem S1x64x1024 .f32) (h1 : a1.IsWhole)
    (a2 : Memref sig .tc .vmem S1x1024x1024 .f32) (h2 : a2.IsWhole)
    (x0 x1 : Vec F S1x64x1024 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
              ∗ owns (c : Thread nD τ) a2 fullShare (stored x0 x1)) -∗ K ⟨⟩))
      ⊢ wp frame (wpE (defs₀ (F := F)) Variants.none c none) E (cc0__cos_attn_kernel i a0 h0 a1 h1 a2 h2) K := by
  simp only [cc0__cos_attn_kernel_eq_skeleton]; unfold cc0__cos_attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_cover _)

/-! ## The proof data -/

/-- Per core: the arrays as launched; after the body at point `t` each input buffer at its block and the output
    buffer at the stored value of the two blocks; no invariant; nothing owed; `x`'s ownership dealt in halves to
    the two windows that read it. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) :
    (dats m 0 c).after 2 t = stored (blockAt m c 0 t) (blockAt m c 1 t) := by dsimp only [dats]

/-- An input's staging buffer holds its block at every point, fetched there or not: where it is not fetched the
    block index has not moved since the point before. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [after_1]; unfold Dat.blockOf blockAt; rw [A_eq]; try rfl) t d).trans
    (by unfold Dat.fetched Dat.blockOf blockAt; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## Dealing the arrays to the windows -/

/-- The two buffers behind the three windows' arrays, each held whole, are the windows' arrays at their shares:
    `x`'s full share is the composite of its two halves, one for each window that reads it. -/
theorem split_arrays (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_v0] (by decide) (by decide)]
  have e0 : (cfg0.win 0).arr.view.set = Finset.univ := (arr_whole0 0).set_eq_univ
  have e2 : (cfg0.win 2).arr.view.set = Finset.univ := (arr_whole0 2).set_eq_univ
  rw [e0, e2, show (dats m 0 c).share 0 = fullShare.left from rfl,
    show (dats m 0 c).share 1 = fullShare.right from rfl, show (dats m 0 c).share 2 = fullShare from rfl]
  change iprop((((c : Thread nD τ).loc main_arg0) ↦{fullShare} V m c main_arg0)
      ∗ (((c : Thread nD τ).loc main_v0) ↦{fullShare} V m c main_v0)) ⊢ _
  iintro ⟨Hx, Ho⟩
  ihave Hs := (pointsTo_share (PosShare.mem_left_op_right fullShare)).1 $$ Hx
  icases Hs with ⟨H0, H1⟩
  isplitl [H0]; · iexact H0
  isplitl [H1]; · iexact H1
  iexact Ho

/-! ## The launch -/

/-- The launch element of the ghost state: every staging cell's owner at round 0 and a duty token for every transfer
    the pipeline issues. -/
def u₀ : UR sig nD τ := initOf (Pipeline.cells cfgs cellOf_inj) (Pipeline.launchToks cfgs cellOf_inj)

set_option backward.isDefEq.respectTransparency.types false in
/-- From any memory with zero counters every weakly fair execution of the program terminates, and then each window's
    array holds what the write-backs of the proof data leave in it. The windows may share arrays: the launch deals
    the buffers behind them by `split_arrays`. Nothing else is routed: there is no scratch and no other buffer. -/
theorem run_main : θ_run defs (onTc (τ := τ) (main (F := F))) (s₀ m ρ)
    (fun r => ∀ (c : Dev nD) (w : Fin cfg0.W),
      r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := fun c Q => by
      simp only [main, Prog.lift, Prog.bind_op, Prog.bind_ret]
      iintro ⟨Hk, Hb⟩; iapply Hk; iexact Hb)
    (hsplit := split_arrays m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The input array is only read: after the run it holds what it held. -/
theorem final_in (c : Dev nD) : (dats m 0 c).arrAt 0 cfg0.N = m ((c : Thread nD τ).loc main_arg0) :=
  ((dats (F := F) m 0 c).arrAt_in (0 : Fin 3) rfl _).trans (A_eq m c 0)

/-- The frame: the program runs to the end from any memory with zero counters and leaves its argument unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c (0 : Fin 3)).trans (final_in m c)) (run_main m ρ)

/-- The same run read at the result array too: it ends at the proof data's last write-backs. -/
theorem run_result : θ_run defs (onTc (τ := τ) (main (F := F))) ⟨m, fun _ => 0, ρ⟩ (fun r => ∀ c : Dev nD,
    r.2.mem ((c.tc : Thread nD τ).loc main_v0) = (dats m 0 c).arrAt 2 cfg0.N
    ∧ r.2.mem ((c.tc : Thread nD τ).loc main_arg0) = m ((c.tc : Thread nD τ).loc main_arg0)) :=
  (θ_run defs _ _).mono (fun _ h c => ⟨h c (2 : Fin 3), (h c (0 : Fin 3)).trans (final_in m c)⟩) (run_main m ρ)

end Cert.KernelIdeal.Hand

end
-- ==== Proof.Payload.lean ====
/-
  The kernel body's stored value, read at an index.

  From the two loaded blocks `xi`, `xj : [1, 64, 1024]` (the channel vectors of 1024 positions each) the body
  stores, at (0, p, q) of its [1, 1024, 1024] block, the matrix product over the channel axis of column `p` of
  `xi` and column `q` of `xj`, divided by the product of the square roots of the two columns' sums of squares.
-/
import proofs.«122935_j57638461112506_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Cosine

open Idealize.ShloMosaic Idealize.ShloMosaic.ValueIdx
open Cert.KernelIdeal Cert.KernelIdeal.Gen

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices, axis by axis -/

/-- The left operand's first axis is the contracted one: it reads the contraction position. -/
theorem lhs_axis0 (i : S1024x1024.Idx) (q : dot_S64x1024_S64x1024_S1024x1024_0_0_1_1_n_n.contr.Idx) :
    (dot_S64x1024_S64x1024_S1024x1024_0_0_1_1_n_n.lhsIdx i q 0).val = (q ⟨0, by decide⟩).val :=
  dot_S64x1024_S64x1024_S1024x1024_0_0_1_1_n_n.lhsIdx_val_of_single rfl i q
/-- The left operand's second axis is kept: it reads the result's row coordinate. -/
theorem lhs_axis1 (i : S1024x1024.Idx) (q : dot_S64x1024_S64x1024_S1024x1024_0_0_1_1_n_n.contr.Idx) :
    (dot_S64x1024_S64x1024_S1024x1024_0_0_1_1_n_n.lhsIdx i q 1).val = (i 0).val := by
  unfold DotDims.lhsIdx
  rw [dif_neg (show ¬(1 : Fin S64x1024.rank) ∈ dot_S64x1024_S64x1024_S1024x1024_0_0_1_1_n_n.lhsBatch by decide), dif_pos (show (1 : Fin S64x1024.rank) ∈ dot_S64x1024_S64x1024_S1024x1024_0_0_1_1_n_n.lhsNonContracting by decide)]
  rfl
/-- The right operand's first axis is the contracted one: it reads the contraction position. -/
theorem rhs_axis0 (i : S1024x1024.Idx) (q : dot_S64x1024_S64x1024_S1024x1024_0_0_1_1_n_n.contr.Idx) :
    (dot_S64x1024_S64x1024_S1024x1024_0_0_1_1_n_n.rhsIdx i q 0).val = (q ⟨0, by decide⟩).val :=
  dot_S64x1024_S64x1024_S1024x1024_0_0_1_1_n_n.rhsIdx_val_of_single rfl i q
/-- The right operand's second axis is kept: it reads the result's column coordinate. -/
theorem rhs_axis1 (i : S1024x1024.Idx) (q : dot_S64x1024_S64x1024_S1024x1024_0_0_1_1_n_n.contr.Idx) :
    (dot_S64x1024_S64x1024_S1024x1024_0_0_1_1_n_n.rhsIdx i q 1).val = (i 1).val := by
  unfold DotDims.rhsIdx
  rw [dif_neg (show ¬(1 : Fin S64x1024.rank) ∈ dot_S64x1024_S64x1024_S1024x1024_0_0_1_1_n_n.rhsBatch by decide), dif_pos (show (1 : Fin S64x1024.rank) ∈ dot_S64x1024_S64x1024_S1024x1024_0_0_1_1_n_n.rhsNonContracting by decide)]
  rfl

/-- The matrix product into the zero splat, at `(p, q)`: the sum over the 64 rows `k` of the left operand at `(k, p)`
    times the right operand at `(k, q)` (both operands are contracted along their first axis). -/
theorem gram_apply (a b : FVec Ideal S64x1024 .bf16) (p q : Fin 1024) :
    matmul dot_S64x1024_S64x1024_S1024x1024_0_0_1_1_n_n none a b (constant (F := Ideal) S1024x1024 .f32 0x00000000#32) (ix2 p q)
      = ∑ k : Fin 64, a (ix2 k p) * b (ix2 k q) := by
  refine (Ideal.matmul_constant_zero_apply dot_S64x1024_S64x1024_S1024x1024_0_0_1_1_n_n none a b (ix2 p q)).trans ?_
  rw [← Equiv.sum_comp (ValueIdx.contrEquiv1 dot_S64x1024_S64x1024_S1024x1024_0_0_1_1_n_n 64 rfl rfl).symm]
  refine Finset.sum_congr rfl fun k _ => ?_
  have hk := ValueIdx.contrEquiv1_symm_val dot_S64x1024_S64x1024_S1024x1024_0_0_1_1_n_n 64 rfl rfl k
  have el : dot_S64x1024_S64x1024_S1024x1024_0_0_1_1_n_n.lhsIdx (ix2 p q) ((ValueIdx.contrEquiv1 dot_S64x1024_S64x1024_S1024x1024_0_0_1_1_n_n 64 rfl rfl).symm k) = ix2 k p := funext fun ax => Fin.ext (by
    match ax with
    | ⟨0, _⟩ => exact (lhs_axis0 _ _).trans hk
    | ⟨1, _⟩ => exact lhs_axis1 _ _)
  have er : dot_S64x1024_S64x1024_S1024x1024_0_0_1_1_n_n.rhsIdx (ix2 p q) ((ValueIdx.contrEquiv1 dot_S64x1024_S64x1024_S1024x1024_0_0_1_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## A column's sum of squares -/

/-- The sum over the 64 rows of a `[64, 1024]` array, at lane `q`. -/
theorem lane_sum (v : FVec Ideal S64x1024 .f32) (hφ : FKind.Formats .f32)
    (hacc : (0x00000000#32 : BitVec 32) = FKind.add.neutral .f32 hφ) (q : Fin 1024) :
    multiReduction .add [0] S1024 v 0x00000000#32 reduces_S64x1024_S1024 hφ hacc (ix1 q) = ∑ k : Fin 64, v (ix2 k q) := by
  refine (Ideal.multiReduction_add_single v 0x00000000#32 reduces_S64x1024_S1024 hφ hacc (ix1 q)).trans ?_
  refine Finset.sum_congr rfl fun k _ => ?_
  exact congrArg v (funext fun ax => Fin.ext (by match ax with | ⟨0, _⟩ => rfl | ⟨1, _⟩ => rfl))

/-- The square root of the sum of squares of column `q` of a loaded block, as the body computes it: the block with its
    unit axis dropped, squared, summed over the rows, given a leading unit axis and rooted. -/
theorem norm_apply (x : FVec Ideal S1x64x1024 .f32) (hφ : FKind.Formats .f32)
    (hacc : (0x00000000#32 : BitVec 32) = FKind.add.neutral .f32 hφ) (u : Fin 1) (q : Fin 1024) :
    sqrt (shapeCast S1x1024 (multiReduction .add [0] S1024
        (mulf (shapeCast S64x1024 x shapeCasts_S1x64x1024_S64x1024) (shapeCast S64x1024 x shapeCasts_S1x64x1024_S64x1024))
        0x00000000#32 reduces_S64x1024_S1024 hφ hacc) shapeCasts_S1024_S1x1024) (ix2 u q)
      = Ideal.sqrt (∑ k : Fin 64, x (ix3 (0 : Fin 1) k q) * x (ix3 (0 : Fin 1) k q)) := by
  refine congrArg Ideal.sqrt ?_
  refine (shapeCast_a_1a_apply _ shapeCasts_S1024_S1x1024 u q).trans ?_
  refine (lane_sum _ hφ hacc q).trans ?_
  refine Finset.sum_congr rfl fun k _ => ?_
  refine (mulf_apply _ _ (ix2 k q)).trans ?_
  rw [shapeCast_1ab_ab_apply]

/-- The stored block at (0, p, q), as sums over the 64 channels of the loaded blocks' entries. -/
theorem payload_apply (xi xj : FVec Ideal S1x64x1024 .f32) (p q : Fin 1024) :
    k0_pay1 (F := Ideal) xi xj (ix3 (0 : Fin 1) p q)
      = Ideal.div (∑ k : Fin 64, xi (ix3 (0 : Fin 1) k p) * xj (ix3 (0 : Fin 1) k q))
          (Ideal.sqrt (∑ k : Fin 64, xi (ix3 (0 : Fin 1) k p) * xi (ix3 (0 : Fin 1) k p))
            * Ideal.sqrt (∑ k : Fin 64, xj (ix3 (0 : Fin 1) k q) * xj (ix3 (0 : Fin 1) k q))) := by
  unfold k0_pay1
  refine (shapeCast_ab_1ab_apply _ shapeCasts_S1024x1024_S1x1024x1024 (0 : Fin 1) p q).trans ?_
  refine (divf_apply _ _ (ix2 p q)).trans ?_
  refine congrArg₂ Ideal.div ?_ ?_
  · refine (gram_apply _ _ p q).trans ?_
    refine Finset.sum_congr rfl fun k _ => ?_
    refine congrArg₂ (· * ·) ?_ ?_
    · exact shapeCast_1ab_ab_apply xi shapeCasts_S1x64x1024_S64x1024 k p
    · exact shapeCast_1ab_ab_apply xj shapeCasts_S1x64x1024_S64x1024 k q
  · refine (mulf_apply _ _ (ix2 p q)).trans ?_
    refine congrArg₂ (· * ·) ?_ ?_
    · refine (broadcastTo_a1_ab_apply _ broadcasts_S1024x1_S1024x1024 p q).trans ?_
      refine (transpose_ix2_apply _ transposes_S1x1024_p1_0_S1024x1 p (0 : Fin 1)).trans ?_
      exact norm_apply xi _ _ 0 p
    · refine (broadcastTo_1b_ab_apply _ broadcasts_S1x1024_S1024x1024 p q).trans ?_
      exact norm_apply xj _ _ 0 q

end Cert.Cosine

end
-- ==== Proof.Spec.lean ====
/-
  The common value of the two programs, stated once over plain coordinates.

  For an input `x : [4, 64, 4096]` (batch, channel, position) both programs return, at `(b, p, q)`, the cosine of the
  angle between the channel vectors at positions `p` and `q` of batch `b`:

      (∑ₖ x[b,k,p] · x[b,k,q]) / (√(∑ₖ x[b,k,p]²) · √(∑ₖ x[b,k,q]²))

  over the extended reals, the quotient and the square root being the ideal instance's (`Ideal.div`, `Ideal.sqrt`):
  the same two functions on either side, so no law of the extended reals beyond `0 + s = s` is needed to join them,
  and no finiteness of the input.
-/
import Idealize.ShloMosaic.PureOps.Ideal
import Idealize.ShloMosaic.Lib.ValueIdx

noncomputable section

namespace Cert.Cosine

open Idealize.ShloMosaic Idealize.ShloMosaic.ValueIdx

/-- The shape of the input, `[4, 64, 4096]`, and of the result, `[4, 4096, 4096]`. -/
abbrev SIn : Shape := ⟨3, ![4, 64, 4096]⟩
abbrev SOut : Shape := ⟨3, ![4, 4096, 4096]⟩

/-- The inner product over the 64 channels of the vectors at positions `p` and `q` of batch `b`. -/
def gram (x : SIn.Idx → EReal) (b : Fin 4) (p q : Fin 4096) : EReal :=
  ∑ k : Fin 64, x (ix3 b k p) * x (ix3 b k q)

/-- The squared length of the channel vector at position `n` of batch `b`. -/
def sqlen (x : SIn.Idx → EReal) (b : Fin 4) (n : Fin 4096) : EReal :=
  ∑ k : Fin 64, x (ix3 b k n) * x (ix3 b k n)

/-- The cosine at `(b, p, q)`: the inner product over the product of the two lengths. -/
def cosAt (x : SIn.Idx → EReal) (b : Fin 4) (p q : Fin 4096) : EReal :=
  Ideal.div (gram x b p q) (Ideal.sqrt (sqlen x b p) * Ideal.sqrt (sqlen x b q))

/-- The whole result array, index by index. -/
def cosine (x : SIn.Idx → EReal) : SOut.Idx → EReal := fun i =>
  cosAt x ⟨(i 0).val, (i 0).isLt⟩ ⟨(i 1).val, (i 1).isLt⟩ ⟨(i 2).val, (i 2).isLt⟩

theorem cosine_ix3 (x : SIn.Idx → EReal) (b : Fin 4) (p q : Fin 4096) :
    cosine x (ix3 b p q) = cosAt x b p q := rfl

end Cert.Cosine

end
-- ==== Proof.KiValue.lean ====
/-
  What the idealized kernel's result array holds after the run: the cosine array of its input.

  Grid point (b, i, j) writes back block (b, i, j) of the result: rows 1024·i … and columns 1024·j … of batch b.
  The body's stored value at (0, p, q) of that block is, by the payload lemma, the quotient of the channel sums of
  the two loaded blocks; window 0's block holds the input at (b, ·, 1024·i + p) and window 1's at
  (b, ·, 1024·j + q) — the three index maps agree on the batch and split the two positions —, so the stored value
  is the cosine at (b, 1024·i + p, 1024·j + q): the block of ONE whole-array function. The 64 blocks tile the
  result (the block that holds (b, r, s) is the one of point (b, r / 1024, s / 1024)), so the array ends at it.
-/
import proofs.«122935_j57638461112506_1_alg».proof.Proof.KiRun
import proofs.«122935_j57638461112506_1_alg».proof.Proof.Payload
import proofs.«122935_j57638461112506_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps, decided over the 64 grid points: both input windows follow the output's batch index and
    sit at channel block 0; window 0 follows the output's row block and window 1 its column block; all block indices
    are below 4. -/
theorem index_facts : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) ≤ 3 ∧ win0_2.index t (1 : Fin 3) ≤ 3 ∧ win0_2.index t (2 : Fin 3) ≤ 3 :=
  (by decide +kernel : ∀ t : Fin grid0.N, _)

/-- Every block of the result is some point's. -/
theorem index_onto : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-- What point `t` writes back is block `t` of the cosine array of the input. -/
theorem flushed_eq (c : Dev nD) (t : Fin cfg0.N) :
    (dats m 0 c).flushed 2 t
      = ((cfg0.win 2).blk t).view.read (Elt Ideal) (Cosine.cosine (m ((c : Thread nD τ).loc main_arg0))) := by
  show (cfg0.win 2).cut (grid0.coords t) ((dats m 0 c).after 2 t) = _
  rw [after_2, stored_eq]
  obtain ⟨e0, e1, e2, e3, e4, e5, e6, e7, e8⟩ := index_facts t
  funext j
  obtain ⟨u, p, q, rfl⟩ : ∃ (u : Fin 1) (p q : Fin 1024), j = ix3 u p q := ⟨j 0, j 1, j 2, eq_ix3 j⟩
  obtain rfl : u = 0 := Subsingleton.elim _ _
  -- the result index this block entry lands on, and its three coordinates
  have hB : win0_2.index t (0 : Fin 3) * 1 + 1 * 0 < 4 := by omega
  have hP : win0_2.index t (1 : Fin 3) * 1024 + 1 * p.val < 4096 := by have := p.isLt; omega
  have hQ : win0_2.index t (2 : Fin 3) * 1024 + 1 * q.val < 4096 := by have := q.isLt; omega
  show k0_pay1 (F := Ideal) (blockAt m c 0 t) (blockAt m c 1 t) (ix3 (0 : Fin 1) p q)
    = Cosine.cosAt (m ((c : Thread nD τ).loc main_arg0)) ⟨_, hB⟩ ⟨_, hP⟩ ⟨_, hQ⟩
  refine (Cosine.payload_apply _ _ p q).trans ?_
  -- window 0's block holds the input at the result's batch and row position, window 1's at its column position
  have h0 : ∀ k : Fin 64, blockAt m c 0 t (ix3 (0 : Fin 1) k p)
      = m ((c : Thread nD τ).loc main_arg0) (ix3 (⟨_, hB⟩ : Fin 4) k (⟨_, hP⟩ : Fin 4096)) := fun k => by
    show m ((c : Thread nD τ).loc main_arg0) (((cfg0.win 0).blk t).view.emb (ix3 (0 : Fin 1) k p)) = _
    refine congrArg (m ((c : Thread nD τ).loc main_arg0)) (funext fun a => Fin.ext ?_)
    match a with
    | ⟨0, _⟩ => show win0_0.index t (0 : Fin 3) * 1 + 1 * 0 = win0_2.index t (0 : Fin 3) * 1 + 1 * 0; omega
    | ⟨1, _⟩ => show win0_0.index t (1 : Fin 3) * 64 + 1 * k.val = k.val; omega
    | ⟨2, _⟩ => show win0_0.index t (2 : Fin 3) * 1024 + 1 * p.val = win0_2.index t (1 : Fin 3) * 1024 + 1 * p.val; omega
  have h1 : ∀ k : Fin 64, blockAt m c 1 t (ix3 (0 : Fin 1) k q)
      = m ((c : Thread nD τ).loc main_arg0) (ix3 (⟨_, hB⟩ : Fin 4) k (⟨_, hQ⟩ : Fin 4096)) := fun k => by
    show m ((c : Thread nD τ).loc main_arg0) (((cfg0.win 1).blk t).view.emb (ix3 (0 : Fin 1) k q)) = _
    refine congrArg (m ((c : Thread nD τ).loc main_arg0)) (funext fun a => Fin.ext ?_)
    match a with
    | ⟨0, _⟩ => show win0_1.index t (0 : Fin 3) * 1 + 1 * 0 = win0_2.index t (0 : Fin 3) * 1 + 1 * 0; omega
    | ⟨1, _⟩ => show win0_1.index t (1 : Fin 3) * 64 + 1 * k.val = k.val; omega
    | ⟨2, _⟩ => show win0_1.index t (2 : Fin 3) * 1024 + 1 * q.val = win0_2.index t (2 : Fin 3) * 1024 + 1 * q.val; omega
  unfold Cosine.cosAt Cosine.gram Cosine.sqlen
  simp only [h0, h1]

/-- An index of the result is in point `t`'s block iff each coordinate is in the block's range on its axis. -/
theorem mem_block (t : Fin cfg0.N) (i : S4x4096x4096.Idx) :
    i ∈ ((cfg0.win 2).blk t).view.set
      ↔ ∀ a : Fin 3, win0_2.index t a * S1x1024x1024.size a ≤ (i a).val
          ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the result lies in the block of the point at its batch, its row block and its column block. -/
theorem covered (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, by omega⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run is the cosine array of the input. -/
theorem final_out (c : Dev nD) :
    (dats m 0 c).arrAt 2 cfg0.N = Cosine.cosine (m ((c : Thread nD τ).loc main_arg0)) :=
  (dats m 0 c).arrAt_eq_of_cover 2 _ (fun t _ => flushed_eq m c t) covered

/-- The idealized kernel's run, read: the result array ends at the cosine array of the argument, the argument
    unchanged. -/
theorem run_cosine : θ_run defs (onTc (τ := τ) (main (F := Ideal))) ⟨m, fun _ => 0, ρ⟩ (fun r => ∀ c : Dev nD,
    r.2.mem ((c.tc : Thread nD τ).loc main_v0) = Cosine.cosine (m ((c.tc : Thread nD τ).loc main_arg0))
    ∧ r.2.mem ((c.tc : Thread nD τ).loc main_arg0) = m ((c.tc : Thread nD τ).loc main_arg0)) :=
  (θ_run defs _ _).mono (fun _ h c => ⟨(h c).1.trans (final_out m c), (h c).2⟩) (run_result m ρ)

end Cert.KernelIdeal.Hand

end
-- ==== Proof.RefCosine.lean ====
/-
  The reference computes the cosine array.

  Its last stage, read at an index (b, p, q), is the host quotient of the contraction over the channel axis at
  (b, ·, p), (b, ·, q) by the product of the two square roots of the channel sums of squares, each sum started
  from the zero word: `0 + s = s` and the index arithmetic of the two broadcasts give `Cosine.cosAt`.
-/
import proofs.«122935_j57638461112506_1_alg».proof.Proof.Gen.ReferenceIdeal.Read
import proofs.«122935_j57638461112506_1_alg».proof.Proof.Spec

noncomputable section

namespace Cert.Cosine

open Idealize.ShloMosaic Idealize.ShloMosaic.ValueIdx
open Cert.ReferenceIdeal Cert.ReferenceIdeal.Gen Cert.ReferenceIdeal.Read

/-- The index the channel reduction reads at `(b, n)` and channel `k` is `(b, k, n)`. -/
theorem idx_v2_ix2 (b : Fin 4) (n : Fin 4096) (k : Fin 64) :
    idx_main_v2 (ix2 b n) k = ix3 b k n :=
  funext fun a => Fin.ext (by match a with | ⟨0, _⟩ => rfl | ⟨1, _⟩ => rfl | ⟨2, _⟩ => rfl)

/-- The square-root stage at `(b, n)` is the length of the channel vector there: the reduction starts from the
    zero word, and `0 + s = s`. -/
theorem v3_ix2 (x : (⟨S4x64x4096, .f32⟩ : BufTy).Contents (Elt Ideal)) (b : Fin 4) (n : Fin 4096) :
    val_main_v3 (F := Ideal) x (ix2 b n) = Ideal.sqrt (sqlen x b n) := by
  rw [val_main_v3_apply, val_main_v2_apply, val_main_cst_apply, Ideal.hostUnary_sqrt_def, Ideal.ofBits_def,
    Ideal.ofBits_zero_f32, zero_add]
  refine congrArg Ideal.sqrt (Finset.sum_congr rfl fun k _ => ?_)
  rw [val_main_v1_apply, Ideal.mulf_def, idx_v2_ix2]

/-- The contraction stage at `(b, p, q)` is the inner product of the channel vectors at `p` and `q`. -/
theorem v0_ix3 (x : (⟨S4x64x4096, .f32⟩ : BufTy).Contents (Elt Ideal)) (b : Fin 4) (p q : Fin 4096) :
    val_main_v0 (F := Ideal) x (ix3 b p q) = gram x b p q := by
  rw [val_main_v0_apply]
  refine Finset.sum_congr rfl fun k _ => ?_
  have el : lidx_main_v0 (ix3 b p q) k = ix3 b k p :=
    funext fun a => Fin.ext (by match a with | ⟨0, _⟩ => rfl | ⟨1, _⟩ => rfl | ⟨2, _⟩ => rfl)
  have er : ridx_main_v0 (ix3 b p q) k = ix3 b k q :=
    funext fun a => Fin.ext (by match a with | ⟨0, _⟩ => rfl | ⟨1, _⟩ => rfl | ⟨2, _⟩ => rfl)
  rw [el, er]

/-- The row broadcast, `[4,4096] → [4,4096,1] → [4,4096,4096]`, reads the square-root stage at `(b, p)`. -/
theorem v6_ix3 (x : (⟨S4x64x4096, .f32⟩ : BufTy).Contents (Elt Ideal)) (b : Fin 4) (p q : Fin 4096) :
    val_main_v6 (F := Ideal) x (ix3 b p q) = val_main_v3 (F := Ideal) x (ix2 b p) := by
  rw [val_main_v6_apply, val_main_v4_apply]
  exact congrArg (val_main_v3 (F := Ideal) x)
    (funext fun a => Fin.ext (by match a with | ⟨0, _⟩ => rfl | ⟨1, _⟩ => rfl))

/-- The column broadcast, `[4,4096] → [4,1,4096] → [4,4096,4096]`, reads the square-root stage at `(b, q)`. -/
theorem v7_ix3 (x : (⟨S4x64x4096, .f32⟩ : BufTy).Contents (Elt Ideal)) (b : Fin 4) (p q : Fin 4096) :
    val_main_v7 (F := Ideal) x (ix3 b p q) = val_main_v3 (F := Ideal) x (ix2 b q) := by
  rw [val_main_v7_apply, val_main_v5_apply]
  exact congrArg (val_main_v3 (F := Ideal) x)
    (funext fun a => Fin.ext (by match a with | ⟨0, _⟩ => rfl | ⟨1, _⟩ => rfl))

/-- The reference's result stage is the cosine array of its argument. -/
theorem reference_eq (x : (⟨S4x64x4096, .f32⟩ : BufTy).Contents (Elt Ideal)) :
    val_main_v9 (F := Ideal) x = cosine x := by
  funext i
  obtain ⟨b, p, q, rfl⟩ : ∃ (b : Fin 4) (p q : Fin 4096), i = ix3 b p q := ⟨i 0, i 1, i 2, eq_ix3 i⟩
  rw [cosine_ix3, val_main_v9_apply, Ideal.hostDivf_def, val_main_v8_apply, Ideal.mulf_def, v0_ix3, v6_ix3, v7_ix3,
    v3_ix2, v3_ix2]
  rfl

end Cert.Cosine

end
-- ==== Proof.lean ====
/-
  The cosine of the angle between channel vectors: a blocked kernel against its whole-array reference.

  For `x : [4, 64, 4096]` both programs return the array `[4, 4096, 4096]` whose entry (b, p, q) is

      (∑ₖ x[b,k,p] · x[b,k,q]) / (√(∑ₖ x[b,k,p]²) · √(∑ₖ x[b,k,q]²)),     k over the 64 channels.

  The kernel computes it in 64 blocks of 1024 × 1024 entries, one per grid point (b, i, j): from the two strips of
  `x` at positions 1024·i … and 1024·j … it forms the 1024 × 1024 matrix product over the channel axis, the two
  strips' column lengths, their outer product, and the quotient. The reference forms the same contraction, lengths,
  outer product and quotient over the whole array at once. Over the extended reals the rounding of the strips to a
  shorter format before the matrix product is the identity, the kernel's and the host's quotient are one function and
  so are their square roots, and a sum started from the zero word is the sum: the two results are the same function
  of `x` index by index (`Cosine.cosine`), with no appeal to the finiteness of the input. A block of that function is
  what each grid point writes back, and the blocks tile the result.

  Both kernel programs hand the ONE array `x` to two input windows; their runs deal the array's ownership in halves
  to the two windows (`Kernel.Hand.run_main`, `KernelIdeal.Hand.run_main`). Nothing was rewritten when the kernel was
  idealized, so `preserves` has nothing to state.
-/
import proofs.«122935_j57638461112506_1_alg».proof.Defs
import proofs.«122935_j57638461112506_1_alg».proof.Proof.Gen.Kernel
import proofs.«122935_j57638461112506_1_alg».proof.Proof.Gen.KernelIdeal
import proofs.«122935_j57638461112506_1_alg».proof.Proof.Gen.ReferenceIdeal
import proofs.«122935_j57638461112506_1_alg».proof.Proof.Gen.Pre_finite_inputs
import proofs.«122935_j57638461112506_1_alg».proof.Proof.Gen.ReferenceIdeal.Run
import proofs.«122935_j57638461112506_1_alg».proof.Proof.Gen.ReferenceIdeal.Read
import proofs.«122935_j57638461112506_1_alg».proof.Proof.KRun
import proofs.«122935_j57638461112506_1_alg».proof.Proof.KiRun
import proofs.«122935_j57638461112506_1_alg».proof.Proof.KiValue
import proofs.«122935_j57638461112506_1_alg».proof.Proof.RefCosine

noncomputable section

namespace Cert.Proof

open Idealize.ShloMosaic Idealize.ShloMosaic.TcCoe Idealize.SL.Sem

/-- The kernel as printed runs to the end and leaves `x` unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is eleven host operations: its run, read at the argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x`, the idealized kernel's result array and the idealized reference's are both the
    cosine array of `x`. -/
theorem algebraic : Cert.algebraic_KernelIdeal_ReferenceIdeal := by
  intro m ρ m' ρ' _ hagree
  refine ⟨_, Cert.KernelIdeal.Hand.run_cosine m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Cosine.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
